-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4 : Shape := ⟨1, ![4]⟩
abbrev S4x64x3 : Shape := ⟨3, ![4, 64, 3]⟩
abbrev S4x8192x1 : Shape := ⟨3, ![4, 8192, 1]⟩
abbrev S4x1x1 : Shape := ⟨3, ![4, 1, 1]⟩
abbrev S4x8192 : Shape := ⟨2, ![4, 8192]⟩
abbrev S4x64 : Shape := ⟨2, ![4, 64]⟩
abbrev S4x64x1 : Shape := ⟨3, ![4, 64, 1]⟩
abbrev S4x8192x64 : Shape := ⟨3, ![4, 8192, 64]⟩
abbrev S4x1x64 : Shape := ⟨3, ![4, 1, 64]⟩
abbrev S4x1 : Shape := ⟨2, ![4, 1]⟩

abbrev nBuf : Space → Nat
  | .hbm => 3
  | .vmem => 6
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4, .f32⟩
  | .local _ .vmem, ⟨0, _⟩ => ⟨S4x8192x3, .f32⟩
  | .local _ .vmem, ⟨1, _⟩ => ⟨S4x64x3, .f32⟩
  | .local _ .vmem, ⟨2, _⟩ => ⟨S4x64x3, .f32⟩
  | .local _ .vmem, ⟨3, _⟩ => ⟨S4, .f32⟩
  | .local _ .vmem, ⟨4, _⟩ => ⟨S4x8192x1, .f32⟩
  | .local _ .vmem, ⟨5, _⟩ => ⟨S4x1x1, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3

abbrev nD : Nat := 1
abbrev τ : Topo := Topo.v7x

variable {F : FTy → Type} [FloatOps F]

abbrev grid0 : Pipeline.Grid := ⟨1, ![128], ![false]⟩

def k0_cond2 (i : grid0.Coords) : BitVec 1 :=
  let arg0 : BitVec 32 := BitVec.ofNat 32 (i 0).val
  let c127_i32 : BitVec 32 := 127#32
  let v37 : BitVec 1 := Scalar.cmpi .eq arg0 c127_i32
  let v38 : BitVec 32 := Scalar.extui v37
  let c0_i32_25 : BitVec 32 := 0#32
  let v39 : BitVec 1 := Scalar.cmpi .ne v38 c0_i32_25
  v39

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .vmem S4x8192x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4x64x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S4x8192x1_S4x8192x1_0_0_0 : ∀ a, (![0, 0, 0] : Fin 3 → Nat) a + S4x8192x1.size a ≤ S4x8192x1.size a
  h_S4x8192x1 : 0 < S4x8192x1.numel
  shapeCasts_S4x8192x1_S4x8192x1 : S4x8192x1.ShapeCasts S4x8192x1
  inb_S4x1x1_S4x1x1_0_0_0 : ∀ a, (![0, 0, 0] : Fin 3 → Nat) a + S4x1x1.size a ≤ S4x1x1.size a
  h_S4x1x1 : 0 < S4x1x1.numel
  shapeCasts_S4x1x1_S4x1x1 : S4x1x1.ShapeCasts S4x1x1
  inb_S4x8192x3_S4x8192x3_0_0_0 : ∀ a, (![0, 0, 0] : Fin 3 → Nat) a + S4x8192x3.size a ≤ S4x8192x3.size a
  h_S4x8192x3 : 0 < S4x8192x3.numel
  inb_S4x64x3_S4x64x3_0_0_0 : ∀ a, (![0, 0, 0] : Fin 3 → Nat) a + S4x64x3.size a ≤ S4x64x3.size a
  h_S4x64x3 : 0 < S4x64x3.numel
  reduces_S4x8192x3_S4x8192 : S4x8192x3.Reduces [2] S4x8192
  shapeCasts_S4x8192_S4x8192x1 : S4x8192.ShapeCasts S4x8192x1
  reduces_S4x64x3_S4x64 : S4x64x3.Reduces [2] S4x64
  shapeCasts_S4x64_S4x64x1 : S4x64.ShapeCasts S4x64x1
  transposes_S4x64x1_p0_2_1_S4x1x64 : S4x64x1.Transposes [0, 2, 1] S4x1x64
  broadcasts_S4x8192x1_S4x8192x64 : S4x8192x1.Broadcasts S4x8192x64
  broadcasts_S4x1x64_S4x8192x64 : S4x1x64.Broadcasts S4x8192x64
  reduces_S4x8192x64_S4x8192 : S4x8192x64.Reduces [2] S4x8192
  reduces_S4x8192x64_S4x64 : S4x8192x64.Reduces [1] S4x64
  shapeCasts_S4x64_S4x1x64 : S4x64.ShapeCasts S4x1x64
  reduces_S4x1x64_S4x1 : S4x1x64.Reduces [2] S4x1
  shapeCasts_S4x1_S4x1x1 : S4x1.ShapeCasts S4x1x1
  reduces_S4x8192x1_S4 : S4x8192x1.Reduces [1, 2] S4
  reduces_S4x1x1_S4 : S4x1x1.Reduces [1, 2] S4
  inb_S4_S4_0 : ∀ a, (![0] : Fin 1 → Nat) a + S4.size a ≤ S4.size a
  h_S4 : 0 < S4.numel
  dot_S4x8192x3_S4x64x3_S4x8192x64_2_2_1_1_0_0_wf : DotDims.WF S4x8192x3 S4x64x3 S4x8192x64 [2] [2] [1] [1] [0] [0]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4x8192x3.size a ≤ S4x8192x3.size a
  hwx0_0 : ∀ i : grid0.Coords, EltTy.bits .f32 = 32 ∨ (Rect.block (s := S4x8192x3) S4x8192x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x64x3.size a ≤ S4x8192x3.size a
  hwx0_1 : ∀ i : grid0.Coords, EltTy.bits .f32 = 32 ∨ (Rect.block (s := S4x8192x3) S4x64x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4.size a ≤ S4.size a
  hwx0_2 : ∀ i : grid0.Coords, EltTy.bits .f32 = 32 ∨ (Rect.block (s := S4) S4.size (cc0_transform_2 i) (hinb0_2 i)).WholeWords (EltTy.packing .f32)

variable [Facts₀]

def dot_S4x8192x3_S4x64x3_S4x8192x64_2_2_1_1_0_0 : DotDims S4x8192x3 S4x64x3 S4x8192x64 where
  lhsContracting := [2]
  rhsContracting := [2]
  lhsNonContracting := [1]
  rhsNonContracting := [1]
  lhsBatch := [0]
  rhsBatch := [0]
  wf := dot_S4x8192x3_S4x64x3_S4x8192x64_2_2_1_1_0_0_wf

abbrev win0_0 : Pipeline.Window sig grid0 :=
  Pipeline.Window.ofSpec (Memref.whole main_arg0) S4x8192x3.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x64x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩
abbrev S4 : Shape := ⟨1, ![4]⟩

abbrev nBuf : Space → Nat
  | .hbm => 36
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192x8192, .f32⟩
  | .hbm, ⟨20, _⟩ => ⟨S4x8192x8192, .f32⟩
  | .hbm, ⟨21, _⟩ => ⟨S_, .f32⟩
  | .hbm, ⟨22, _⟩ => ⟨S4x8192, .f32⟩
  | .hbm, ⟨23, _⟩ => ⟨S_, .f32⟩
  | .hbm, ⟨24, _⟩ => ⟨S4x8192, .f32⟩
  | .hbm, ⟨25, _⟩ => ⟨S_, .f32⟩
  | .hbm, ⟨26, _⟩ => ⟨S4, .f32⟩
  | .hbm, ⟨27, _⟩ => ⟨S_, .f32⟩
  | .hbm, ⟨28, _⟩ => ⟨S4, .f32⟩
  | .hbm, ⟨29, _⟩ => ⟨S4, .f32⟩
  | .hbm, ⟨30, _⟩ => ⟨S_, .f32⟩
  | .hbm, ⟨31, _⟩ => ⟨S4, .f32⟩
  | .hbm, ⟨32, _⟩ => ⟨S_, .f32⟩
  | .hbm, ⟨33, _⟩ => ⟨S4, .f32⟩
  | .hbm, ⟨34, _⟩ => ⟨S4, .f32⟩
  | .hbm, ⟨35, _⟩ => ⟨S4, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_cst_8 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192x8192_S4x8192_d1 : S4x8192x8192.ReducesTo [1] S4x8192
  reducesTo_S4x8192_S4_d1 : S4x8192.ReducesTo [1] S4
  bcast_S_S4 : S_.BroadcastsInDim S4 (![] : Fin 0 → Fin S4.rank)
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.Chamfer.lean ====
/-
  The Chamfer distance of two clouds of 8192 points of three coordinates, over a batch of four, on the
  extended reals, as ONE function of the two arrays: for a batch member `b`

    chamfer p g b = (∑ n, min over m of clipSq p g b n m) / 8192 + (∑ m, min over n of clipSq p g b n m) / 8192,
    clipSq p g b n m = max ((‖p b n‖² + ‖g b m‖²) - 2 · ⟨p b n, g b m⟩) 0.

  The four f32 words that occur (2.0, 0.0, +∞, 8192.0) are kept as the values of their words: both programs
  spell the same words at the same places, so none of them is ever evaluated here. Every minimum is the fold
  of `min` from the word of +∞.

  Besides the function, the two laws by which a run over the second cloud in 128 tiles of 64 points reaches it:
  the indices below 64·(k+1) are those below 64·k together with tile k, so a `min`-fold over the longer prefix
  is the `min` of the fold over the shorter one and the fold over the tile (`min` is idempotent, so the
  starting value may be met twice), and a sum over the longer prefix is the sum over the shorter one plus the
  tile's sum. Nothing here needs a finite input: only commutativity, associativity and idempotence are used.
-/
import Idealize.ShloMosaic.PureOps.Ideal
import Idealize.ShloMosaic.PureOps.Ideal.Laws
import Idealize.ShloMosaic.Lib.ValueIdx

noncomputable section

namespace Cert.Chamfer

open Idealize.ShloMosaic Idealize.ShloMosaic.ValueIdx
open scoped BigOperators

/-- The shared words, as extended reals. -/
abbrev two : EReal := Ideal.ofBits .f32 0x40000000#32
abbrev zero : EReal := Ideal.ofBits .f32 0x00000000#32
abbrev inf : EReal := Ideal.ofBits .f32 0x7F800000#32
abbrev count : EReal := Ideal.ofBits .f32 0x46000000#32

/-- The squared distance of two points given by their three coordinates, as both programs form it: the two
    squared norms added, twice the inner product taken off, the result clipped at zero from below. -/
def sqDist (P Q : Fin 3 → EReal) : EReal :=
  max ((∑ d, P d * P d + ∑ d, Q d * Q d) - two * ∑ d, P d * Q d) zero

/-- A cloud array: batch × point × coordinate. -/
abbrev Cloud : Shape := ⟨3, ![4, 8192, 3]⟩

/-- Point `n` of batch member `b`. -/
def pt (x : Cloud.Idx → EReal) (b : Fin 4) (n : Fin 8192) : Fin 3 → EReal := fun d => x (ix3 b n d)

/-- The clipped squared distance from point `n` of the first cloud to point `m` of the second. -/
def clipSq (p g : Cloud.Idx → EReal) (b : Fin 4) (n m : Fin 8192) : EReal := sqDist (pt p b n) (pt g b m)

/-- From a point of the first cloud to the nearest point of the second. -/
def toSecond (p g : Cloud.Idx → EReal) (b : Fin 4) (n : Fin 8192) : EReal :=
  (Finset.univ : Finset (Fin 8192)).fold min inf fun m => clipSq p g b n m

/-- From a point of the second cloud to the nearest point of the first. -/
def toFirst (p g : Cloud.Idx → EReal) (b : Fin 4) (m : Fin 8192) : EReal :=
  (Finset.univ : Finset (Fin 8192)).fold min inf fun n => clipSq p g b n m

/-- The Chamfer distance of batch member `i 0`. -/
def chamfer (p g : Cloud.Idx → EReal) : (⟨1, ![4]⟩ : Shape).Idx → EReal := fun i =>
  Ideal.div (∑ n, toSecond p g (i 0) n) count + Ideal.div (∑ m, toFirst p g (i 0) m) count

/-! ## Tiles of 64 -/

/-- Point `j` of tile `k`. -/
def tileIdx (k : Fin 128) (j : Fin 64) : Fin 8192 :=
  ⟨64 * k.val + j.val, by have := k.isLt; have := j.isLt; omega⟩

theorem tileIdx_val (k : Fin 128) (j : Fin 64) : (tileIdx k j).val = 64 * k.val + j.val := rfl

theorem tileIdx_injective (k : Fin 128) : Function.Injective (tileIdx k) := fun j j' e =>
  Fin.ext (by have := congrArg Fin.val e; simp only [tileIdx_val] at this; omega)

/-- The indices below `64·k`. -/
def below (k : ℕ) : Finset (Fin 8192) := Finset.univ.filter fun m => m.val < 64 * k

theorem mem_below (k : ℕ) (m : Fin 8192) : m ∈ below k ↔ m.val < 64 * k := by
  simp [below]

theorem below_zero : below 0 = ∅ := by
  ext m; simp [mem_below]

theorem below_full : below 128 = Finset.univ := by
  ext m; have := m.isLt; simp [mem_below]

/-- An index below `64·(k+1)` is below `64·k` or in tile `k`. -/
theorem below_succ_cases (k : Fin 128) (m : Fin 8192) (h : m.val < 64 * (k.val + 1)) :
    m.val < 64 * k.val ∨ ∃ j : Fin 64, tileIdx k j = m := by
  by_cases h' : m.val < 64 * k.val
  · exact .inl h'
  · exact .inr ⟨⟨m.val - 64 * k.val, by omega⟩, Fin.ext (by rw [tileIdx_val]; show 64 * k.val + (m.val - 64 * k.val) = m.val; omega)⟩

/-- A `min`-fold over the indices below `64·(k+1)` is the `min` of the fold over those below `64·k` and the
    fold over tile `k`, both from the same starting value. -/
theorem fold_min_below_succ (f : Fin 8192 → EReal) (I : EReal) (k : Fin 128) :
    min ((below k.val).fold min I f) ((Finset.univ : Finset (Fin 64)).fold min I fun j => f (tileIdx k j))
      = (below (k.val + 1)).fold min I f := by
  refine eq_of_forall_le_iff fun c => ?_
  simp only [le_min_iff, Finset.le_fold_min, mem_below, Finset.mem_univ, true_implies]
  constructor
  · rintro ⟨⟨hI, h1⟩, -, h2⟩
    refine ⟨hI, fun m hm => ?_⟩
    rcases below_succ_cases k m hm with h | ⟨j, rfl⟩
    · exact h1 m h
    · exact h2 j
  · rintro ⟨hI, h⟩
    exact ⟨⟨hI, fun m hm => h m (by omega)⟩, hI, fun j => h _ (by rw [tileIdx_val]; have := j.isLt; omega)⟩

/-- A sum over the indices below `64·(k+1)` is the sum over those below `64·k` plus the sum over tile `k`. -/
theorem sum_below_succ (f : Fin 8192 → EReal) (k : Fin 128) :
    ∑ m ∈ below (k.val + 1), f m = ∑ m ∈ below k.val, f m + ∑ j : Fin 64, f (tileIdx k j) := by
  have hset : below (k.val + 1) = below k.val ∪ Finset.univ.image (tileIdx k) := by
    ext m
    simp only [mem_below, Finset.mem_union, Finset.mem_image, Finset.mem_univ, true_and]
    constructor
    · exact below_succ_cases k m
    · rintro (h | ⟨j, rfl⟩)
      · omega
      · rw [tileIdx_val]; have := j.isLt; omega
  have hdisj : Disjoint (below k.val) (Finset.univ.image (tileIdx k)) := by
    rw [Finset.disjoint_left]
    intro m hm hm'
    rw [mem_below] at hm
    obtain ⟨j, -, rfl⟩ := Finset.mem_image.mp hm'
    rw [tileIdx_val] at hm; omega
  rw [hset, Finset.sum_union hdisj, Finset.sum_image fun j _ j' _ e => tileIdx_injective k e]

end Cert.Chamfer

end
-- ==== Proof.RefValue.lean ====
/-
  The reference computes the Chamfer distance: its result term, one host operation at a time, is
  `Cert.Chamfer.chamfer` of its two arguments at every index.

  The matrix of clipped squared distances (stage `%14`) at (b, n, m) is `clipSq p g b n m`: each squared norm
  is the host's sum over the three coordinates from the zero word (so the zero is added and disappears), the
  inner product is the host's `dot_general` over the coordinate axis with the batch axis kept. The two
  `stablehlo.reduce` with a `minimum` body are folds of `min` from the word of +∞ along the last axis
  (nearest point of the second cloud) and along the middle axis (nearest point of the first); the two outer
  sums run over the 8192 points, and the two quotients and their sum are the function's own.
-/
import proofs.«142569_j11381663334570_1_alg».proof.Proof.Gen.ReferenceIdeal.Read
import proofs.«142569_j11381663334570_1_alg».proof.Proof.Chamfer

noncomputable section

namespace Cert.ReferenceIdeal.RefValue

open Cert.ReferenceIdeal Cert.ReferenceIdeal.Gen Cert.ReferenceIdeal.Read Cert.Chamfer
open Idealize.ShloMosaic Idealize.ShloMosaic.ValueIdx
open scoped BigOperators

variable (p g : (⟨S4x8192x3, .f32⟩ : BufTy).Contents (Elt Ideal))

/-- Stage `%14`, the clipped squared distances, at (b, n, m). -/
theorem clipped_apply (b : Fin 4) (n m : Fin 8192) :
    val_main_v14 (F := Ideal) p g (ix3 b n m) = clipSq p g b n m := by
  have e7 : idx_main_v7 (ix3 b n m) = ix3 b n (0 : Fin 1) :=
    funext fun a => Fin.ext (by match a with | ⟨0, _⟩ => rfl | ⟨1, _⟩ => rfl | ⟨2, _⟩ => rfl)
  have e8 : idx_main_v8 (ix3 b n m) = ix3 b (0 : Fin 1) m :=
    funext fun a => Fin.ext (by match a with | ⟨0, _⟩ => rfl | ⟨1, _⟩ => rfl | ⟨2, _⟩ => rfl)
  have e5 : idx_main_v5 (ix3 b n (0 : Fin 1)) = ix2 b n :=
    funext fun a => Fin.ext (by match a with | ⟨0, _⟩ => rfl | ⟨1, _⟩ => rfl)
  have e6 : idx_main_v6 (ix3 b (0 : Fin 1) m) = ix2 b m :=
    funext fun a => Fin.ext (by match a with | ⟨0, _⟩ => rfl | ⟨1, _⟩ => rfl)
  have e1 : ∀ k : Fin 3, idx_main_v1 (ix2 b n) k = ix3 b n k := fun k =>
    funext fun a => Fin.ext (by match a with | ⟨0, _⟩ => rfl | ⟨1, _⟩ => rfl | ⟨2, _⟩ => rfl)
  have e3 : ∀ k : Fin 3, idx_main_v3 (ix2 b m) k = ix3 b m k := fun k =>
    funext fun a => Fin.ext (by match a with | ⟨0, _⟩ => rfl | ⟨1, _⟩ => rfl | ⟨2, _⟩ => rfl)
  have el : ∀ k : Fin 3, lidx_main_v4 (ix3 b n m) k = ix3 b n k := fun k =>
    funext fun a => Fin.ext (by match a with | ⟨0, _⟩ => rfl | ⟨1, _⟩ => rfl | ⟨2, _⟩ => rfl)
  have er : ∀ k : Fin 3, ridx_main_v4 (ix3 b n m) k = ix3 b m k := fun k =>
    funext fun a => Fin.ext (by match a with | ⟨0, _⟩ => rfl | ⟨1, _⟩ => rfl | ⟨2, _⟩ => rfl)
  rw [val_main_v14_apply, val_main_v12_apply, val_main_v13_apply, val_main_cst_2_apply, val_main_v9_apply,
    val_main_v11_apply, val_main_v10_apply, val_main_cst_1_apply, val_main_v4_apply, val_main_v7_apply,
    val_main_v8_apply, e7, e8, val_main_v5_apply, val_main_v6_apply, e5, e6, val_main_v1_apply, val_main_v3_apply,
    val_main_cst_apply, val_main_cst_0_apply]
  simp only [val_main_v0_apply, val_main_v2_apply, e1, e3, el, er, Ideal.maximumf_def, Ideal.subf_def, Ideal.addf_def,
    Ideal.mulf_def, Ideal.ofBits_def, Ideal.ofBits_zero_f32, zero_add, clipSq, sqDist, pt]

/-- Stage `%15`, the minimum along the last axis, at (b, n): to the nearest point of the second cloud. -/
theorem rowMin_apply (b : Fin 4) (n : Fin 8192) :
    val_main_v15 (F := Ideal) p g (ix2 b n) = toSecond p g b n := by
  unfold val_main_v15
  rw [Host.reduce_eq_fold_single FloatOps.minimumf _ _ reducesTo_S4x8192x8192_S4x8192_d2 (by decide) h_S_ (ix2 b n)]
  show (Finset.univ : Finset (Fin 8192)).fold min (Ideal.ofBits .f32 0x7F800000#32) _ = _
  unfold toSecond
  refine congrArg (fun f => (Finset.univ : Finset (Fin 8192)).fold min inf f) (funext fun m => ?_)
  show val_main_v14 (F := Ideal) p g _ = _
  rw [← clipped_apply p g b n m]
  exact congrArg _ (funext fun a => Fin.ext (by match a with | ⟨0, _⟩ => rfl | ⟨1, _⟩ => rfl | ⟨2, _⟩ => rfl))

/-- Stage `%16`, the minimum along the middle axis, at (b, m): to the nearest point of the first cloud. -/
theorem colMin_apply (b : Fin 4) (m : Fin 8192) :
    val_main_v16 (F := Ideal) p g (ix2 b m) = toFirst p g b m := by
  unfold val_main_v16
  rw [Host.reduce_eq_fold_single FloatOps.minimumf _ _ reducesTo_S4x8192x8192_S4x8192_d1 (by decide) h_S_ (ix2 b m)]
  show (Finset.univ : Finset (Fin 8192)).fold min (Ideal.ofBits .f32 0x7F800000#32) _ = _
  unfold toFirst
  refine congrArg (fun f => (Finset.univ : Finset (Fin 8192)).fold min inf f) (funext fun n => ?_)
  show val_main_v14 (F := Ideal) p g _ = _
  rw [← clipped_apply p g b n m]
  exact congrArg _ (funext fun a => Fin.ext (by match a with | ⟨0, _⟩ => rfl | ⟨1, _⟩ => rfl | ⟨2, _⟩ => rfl))

/-- The reference's result is the Chamfer distance. -/
theorem result_eq : val_main_v23 (F := Ideal) p g = chamfer p g := by
  funext i
  obtain ⟨b, rfl⟩ : ∃ b : Fin 4, i = ix1 b := ⟨i 0, eq_ix1 i⟩
  have e17 : ∀ k : Fin 8192, idx_main_v17 (ix1 b) k = ix2 b k := fun k =>
    funext fun a => Fin.ext (by match a with | ⟨0, _⟩ => rfl | ⟨1, _⟩ => rfl)
  have e20 : ∀ k : Fin 8192, idx_main_v20 (ix1 b) k = ix2 b k := fun k =>
    funext fun a => Fin.ext (by match a with | ⟨0, _⟩ => rfl | ⟨1, _⟩ => rfl)
  rw [val_main_v23_apply, val_main_v19_apply, val_main_v22_apply, val_main_v17_apply, val_main_v20_apply,
    val_main_v18_apply, val_main_v21_apply, val_main_cst_5_apply, val_main_cst_6_apply, val_main_cst_7_apply,
    val_main_cst_8_apply]
  simp only [e17, e20, rowMin_apply, colMin_apply, Ideal.addf_def, Ideal.hostDivf_def, Ideal.ofBits_def,
    Ideal.ofBits_zero_f32, zero_add, chamfer]

end Cert.ReferenceIdeal.RefValue

end
-- ==== Proof.Pieces.lean ====
/-
  What one grid point leaves behind, case by case, as the body's arithmetic applied to what the point found.

  The body keeps two accumulators between grid points: the running row minimum (one entry per point of the
  first cloud) and the running sum of column minima (one entry per batch member). At the first grid point it
  resets them (to +∞ and to 0) before it folds the tile in; at every point it replaces the row minimum by its
  minimum with the tile's row minima and adds the tile's column-minima sum; at the last point it also writes
  the result, computed from the two accumulators it has just updated. Each lemma says which arithmetic term
  of which inputs a buffer ends at: the last whole-buffer store wins, a load of a buffer after a whole-buffer
  store reads what was stored, a load of an untouched buffer reads what the point found there.
-/
import proofs.«142569_j11381663334570_1_alg».proof.Proof.Gen.KernelIdeal.Frame
import Idealize.ShloMosaic.Lib.Pipeline.Value

set_option maxRecDepth 16384

noncomputable section

namespace Cert.KernelIdeal.Pieces

open Cert.KernelIdeal Cert.KernelIdeal.Gen
open Idealize.ShloMosaic Idealize.ShloMosaic.TcCoe Idealize.ShloMosaic.Tactic Idealize.SL.Sem

variable {F : FTy → Type} [FloatOps F]

theorem hz3 : (![0, 0, 0] : Fin 3 → Nat) = fun _ => 0 := funext fun a => by fin_cases a <;> rfl
theorem hz1 : (![0] : Fin 1 → Nat) = fun _ => 0 := funext fun a => by fin_cases a <;> rfl

/-- First grid point, the row-minimum accumulator: reset to the splat of +∞, then folded with the tile. -/
theorem rowAcc_first (c : Dev nD) (i : grid0.Coords) (arg1 : Memref sig .tc .vmem S4x8192x3 .f32) (harg1 : arg1.IsWhole) (arg2 : Memref sig .tc .vmem S4x64x3 .f32) (harg2 : arg2.IsWhole) (arg3 : Memref sig .tc .vmem S4 .f32) (harg3 : arg3.IsWhole) (arg4 : Memref sig .tc .vmem S4x8192x1 .f32) (harg4 : arg4.IsWhole) (arg5 : Memref sig .tc .vmem S4x1x1 .f32) (harg5 : arg5.IsWhole) (hc0 : cond0_0 i) (hc1 : ¬cond0_1 i) (x0 : Vec F S4x8192x3 .f32) (x1 : Vec F S4x64x3 .f32) :
    sout0_A_0 c i arg1 harg1 arg2 harg2 arg3 harg3 arg4 harg4 arg5 harg5 hc0 hc1 x0 x1 = k0_pay6 x0 x1 (k0_pay3 (F := F)) := by
  unfold sout0_A_0
  rw [View.read_writes_eq_canon _ _ _ (scover0_A_0 c i arg1 harg1 arg2 harg2 arg3 harg3 arg4 harg4 arg5 harg5 hc0 hc1 x0 x1)]
  unfold kernelRun0_A
  dsimp only
  sl_unfold_words
  rw [View.canon_cons_unit_zero (S := S4x8192x1) hz3]
  simp only [View.readAt_eq_ld, harg1.read_unread, harg2.read_unread, harg4.read_unread, harg5.read_unread,
    View.ld_unit_zero (S := S4x8192x3) hz3, View.ld_unit_zero (S := S4x64x3) hz3, View.ld_unit_zero (S := S4x8192x1) hz3,
    View.ld_unit_zero (S := S4x1x1) hz3, View.readCov_unit_zero (S := S4x8192x1) _ hz3, View.readCov_unit_zero (S := S4x1x1) _ hz3]

/-- First grid point, the column-minima sum: reset to the zero splat, then the tile's sum added. -/
theorem colAcc_first (c : Dev nD) (i : grid0.Coords) (arg1 : Memref sig .tc .vmem S4x8192x3 .f32) (harg1 : arg1.IsWhole) (arg2 : Memref sig .tc .vmem S4x64x3 .f32) (harg2 : arg2.IsWhole) (arg3 : Memref sig .tc .vmem S4 .f32) (harg3 : arg3.IsWhole) (arg4 : Memref sig .tc .vmem S4x8192x1 .f32) (harg4 : arg4.IsWhole) (arg5 : Memref sig .tc .vmem S4x1x1 .f32) (harg5 : arg5.IsWhole) (hc0 : cond0_0 i) (hc1 : ¬cond0_1 i) (x0 : Vec F S4x8192x3 .f32) (x1 : Vec F S4x64x3 .f32) :
    sout0_A_1 c i arg1 harg1 arg2 harg2 arg3 harg3 arg4 harg4 arg5 harg5 hc0 hc1 x0 x1 = k0_pay1 (k0_pay4 (F := F)) (k0_pay7 x0 x1) := by
  unfold sout0_A_1
  rw [View.read_writes_eq_canon _ _ _ (scover0_A_1 c i arg1 harg1 arg2 harg2 arg3 harg3 arg4 harg4 arg5 harg5 hc0 hc1 x0 x1)]
  unfold kernelRun0_A
  dsimp only
  sl_unfold_words
  rw [View.canon_cons_unit_zero (S := S4x1x1) hz3]
  simp only [View.readAt_eq_ld, harg1.read_unread, harg2.read_unread, harg4.read_unread, harg5.read_unread,
    View.ld_unit_zero (S := S4x8192x3) hz3, View.ld_unit_zero (S := S4x64x3) hz3, View.ld_unit_zero (S := S4x8192x1) hz3,
    View.ld_unit_zero (S := S4x1x1) hz3, View.readCov_unit_zero (S := S4x8192x1) _ hz3, View.readCov_unit_zero (S := S4x1x1) _ hz3]

/-- A middle grid point, the row-minimum accumulator: what the point before left, folded with the tile. -/
theorem rowAcc_mid (c : Dev nD) (i : grid0.Coords) (arg1 : Memref sig .tc .vmem S4x8192x3 .f32) (harg1 : arg1.IsWhole) (arg2 : Memref sig .tc .vmem S4x64x3 .f32) (harg2 : arg2.IsWhole) (arg3 : Memref sig .tc .vmem S4 .f32) (harg3 : arg3.IsWhole) (arg4 : Memref sig .tc .vmem S4x8192x1 .f32) (harg4 : arg4.IsWhole) (arg5 : Memref sig .tc .vmem S4x1x1 .f32) (harg5 : arg5.IsWhole) (hc0 : ¬cond0_0 i) (hc1 : ¬cond0_1 i) (x0 : Vec F S4x8192x3 .f32) (x1 : Vec F S4x64x3 .f32) (xs0 : Vec F S4x8192x1 .f32) (xs1 : Vec F S4x1x1 .f32) :
    sout0_B_0 c i arg1 harg1 arg2 harg2 arg3 harg3 arg4 harg4 arg5 harg5 hc0 hc1 x0 x1 xs0 xs1 = k0_pay6 x0 x1 xs0 := by
  unfold sout0_B_0
  rw [View.read_writes_eq_canon _ _ _ (scover0_B_0 c i arg1 harg1 arg2 harg2 arg3 harg3 arg4 harg4 arg5 harg5 hc0 hc1 x0 x1 xs0 xs1)]
  unfold kernelRun0_B
  dsimp only
  sl_unfold_words
  rw [View.canon_cons_unit_zero (S := S4x8192x1) hz3]
  simp only [View.readAt_eq_ld, harg1.read_unread, harg2.read_unread, harg4.read_unread, harg5.read_unread,
    View.ld_unit_zero (S := S4x8192x3) hz3, View.ld_unit_zero (S := S4x64x3) hz3, View.ld_unit_zero (S := S4x8192x1) hz3,
    View.ld_unit_zero (S := S4x1x1) hz3, View.readCov_unit_zero (S := S4x8192x1) _ hz3, View.readCov_unit_zero (S := S4x1x1) _ hz3]

/-- A middle grid point, the column-minima sum: what the point before left plus the tile's sum. -/
theorem colAcc_mid (c : Dev nD) (i : grid0.Coords) (arg1 : Memref sig .tc .vmem S4x8192x3 .f32) (harg1 : arg1.IsWhole) (arg2 : Memref sig .tc .vmem S4x64x3 .f32) (harg2 : arg2.IsWhole) (arg3 : Memref sig .tc .vmem S4 .f32) (harg3 : arg3.IsWhole) (arg4 : Memref sig .tc .vmem S4x8192x1 .f32) (harg4 : arg4.IsWhole) (arg5 : Memref sig .tc .vmem S4x1x1 .f32) (harg5 : arg5.IsWhole) (hc0 : ¬cond0_0 i) (hc1 : ¬cond0_1 i) (x0 : Vec F S4x8192x3 .f32) (x1 : Vec F S4x64x3 .f32) (xs0 : Vec F S4x8192x1 .f32) (xs1 : Vec F S4x1x1 .f32) :
    sout0_B_1 c i arg1 harg1 arg2 harg2 arg3 harg3 arg4 harg4 arg5 harg5 hc0 hc1 x0 x1 xs0 xs1 = k0_pay1 xs1 (k0_pay7 x0 x1) := by
  unfold sout0_B_1
  rw [View.read_writes_eq_canon _ _ _ (scover0_B_1 c i arg1 harg1 arg2 harg2 arg3 harg3 arg4 harg4 arg5 harg5 hc0 hc1 x0 x1 xs0 xs1)]
  unfold kernelRun0_B
  dsimp only
  sl_unfold_words
  rw [View.canon_cons_unit_zero (S := S4x1x1) hz3]
  simp only [View.readAt_eq_ld, harg1.read_unread, harg2.read_unread, harg4.read_unread, harg5.read_unread,
    View.ld_unit_zero (S := S4x8192x3) hz3, View.ld_unit_zero (S := S4x64x3) hz3, View.ld_unit_zero (S := S4x8192x1) hz3,
    View.ld_unit_zero (S := S4x1x1) hz3, View.readCov_unit_zero (S := S4x8192x1) _ hz3, View.readCov_unit_zero (S := S4x1x1) _ hz3]

/-- The last grid point, the row-minimum accumulator: as at a middle point. -/
theorem rowAcc_last (c : Dev nD) (i : grid0.Coords) (arg1 : Memref sig .tc .vmem S4x8192x3 .f32) (harg1 : arg1.IsWhole) (arg2 : Memref sig .tc .vmem S4x64x3 .f32) (harg2 : arg2.IsWhole) (arg3 : Memref sig .tc .vmem S4 .f32) (harg3 : arg3.IsWhole) (arg4 : Memref sig .tc .vmem S4x8192x1 .f32) (harg4 : arg4.IsWhole) (arg5 : Memref sig .tc .vmem S4x1x1 .f32) (harg5 : arg5.IsWhole) (hc0 : ¬cond0_0 i) (hc1 : cond0_1 i) (x0 : Vec F S4x8192x3 .f32) (x1 : Vec F S4x64x3 .f32) (xs0 : Vec F S4x8192x1 .f32) (xs1 : Vec F S4x1x1 .f32) :
    sout0_C_0 c i arg1 harg1 arg2 harg2 arg3 harg3 arg4 harg4 arg5 harg5 hc0 hc1 x0 x1 xs0 xs1 = k0_pay6 x0 x1 xs0 := by
  unfold sout0_C_0
  rw [View.read_writes_eq_canon _ _ _ (scover0_C_0 c i arg1 harg1 arg2 harg2 arg3 harg3 arg4 harg4 arg5 harg5 hc0 hc1 x0 x1 xs0 xs1)]
  unfold kernelRun0_C
  dsimp only
  sl_unfold_words
  rw [View.canon_cons_unit_zero (S := S4x8192x1) hz3]
  simp only [View.readAt_eq_ld, harg1.read_unread, harg2.read_unread, harg4.read_unread, harg5.read_unread,
    View.ld_unit_zero (S := S4x8192x3) hz3, View.ld_unit_zero (S := S4x64x3) hz3, View.ld_unit_zero (S := S4x8192x1) hz3,
    View.ld_unit_zero (S := S4x1x1) hz3, View.readCov_unit_zero (S := S4x8192x1) _ hz3, View.readCov_unit_zero (S := S4x1x1) _ hz3]

/-- The last grid point, the column-minima sum: as at a middle point. -/
theorem colAcc_last (c : Dev nD) (i : grid0.Coords) (arg1 : Memref sig .tc .vmem S4x8192x3 .f32) (harg1 : arg1.IsWhole) (arg2 : Memref sig .tc .vmem S4x64x3 .f32) (harg2 : arg2.IsWhole) (arg3 : Memref sig .tc .vmem S4 .f32) (harg3 : arg3.IsWhole) (arg4 : Memref sig .tc .vmem S4x8192x1 .f32) (harg4 : arg4.IsWhole) (arg5 : Memref sig .tc .vmem S4x1x1 .f32) (harg5 : arg5.IsWhole) (hc0 : ¬cond0_0 i) (hc1 : cond0_1 i) (x0 : Vec F S4x8192x3 .f32) (x1 : Vec F S4x64x3 .f32) (xs0 : Vec F S4x8192x1 .f32) (xs1 : Vec F S4x1x1 .f32) :
    sout0_C_1 c i arg1 harg1 arg2 harg2 arg3 harg3 arg4 harg4 arg5 harg5 hc0 hc1 x0 x1 xs0 xs1 = k0_pay1 xs1 (k0_pay7 x0 x1) := by
  unfold sout0_C_1
  rw [View.read_writes_eq_canon _ _ _ (scover0_C_1 c i arg1 harg1 arg2 harg2 arg3 harg3 arg4 harg4 arg5 harg5 hc0 hc1 x0 x1 xs0 xs1)]
  unfold kernelRun0_C
  dsimp only
  sl_unfold_words
  rw [View.canon_cons_unit_zero (S := S4x1x1) hz3]
  simp only [View.readAt_eq_ld, harg1.read_unread, harg2.read_unread, harg4.read_unread, harg5.read_unread,
    View.ld_unit_zero (S := S4x8192x3) hz3, View.ld_unit_zero (S := S4x64x3) hz3, View.ld_unit_zero (S := S4x8192x1) hz3,
    View.ld_unit_zero (S := S4x1x1) hz3, View.readCov_unit_zero (S := S4x8192x1) _ hz3, View.readCov_unit_zero (S := S4x1x1) _ hz3]

/-- The last grid point, the result block: the closing arithmetic of the two accumulators as this point has just updated them. -/
theorem result_last (c : Dev nD) (i : grid0.Coords) (arg1 : Memref sig .tc .vmem S4x8192x3 .f32) (harg1 : arg1.IsWhole) (arg2 : Memref sig .tc .vmem S4x64x3 .f32) (harg2 : arg2.IsWhole) (arg3 : Memref sig .tc .vmem S4 .f32) (harg3 : arg3.IsWhole) (arg4 : Memref sig .tc .vmem S4x8192x1 .f32) (harg4 : arg4.IsWhole) (arg5 : Memref sig .tc .vmem S4x1x1 .f32) (harg5 : arg5.IsWhole) (hc0 : ¬cond0_0 i) (hc1 : cond0_1 i) (x0 : Vec F S4x8192x3 .f32) (x1 : Vec F S4x64x3 .f32) (xs0 : Vec F S4x8192x1 .f32) (xs1 : Vec F S4x1x1 .f32) :
    out0_C_2 c i arg1 harg1 arg2 harg2 arg3 harg3 arg4 harg4 arg5 harg5 hc0 hc1 x0 x1 xs0 xs1 = k0_pay2 (k0_pay6 x0 x1 xs0) (k0_pay1 xs1 (k0_pay7 x0 x1)) := by
  unfold out0_C_2
  rw [View.read_writes_eq_canon _ _ _ (cover0_C_2 c i arg1 harg1 arg2 harg2 arg3 harg3 arg4 harg4 arg5 harg5 hc0 hc1 x0 x1 xs0 xs1)]
  unfold kernelRun0_C
  dsimp only
  sl_unfold_words
  rw [View.canon_cons_unit_zero (S := S4) hz1]
  simp only [View.readAt_eq_ld, harg1.read_unread, harg2.read_unread, harg4.read_unread, harg5.read_unread,
    View.ld_unit_zero (S := S4x8192x3) hz3, View.ld_unit_zero (S := S4x64x3) hz3, View.ld_unit_zero (S := S4x8192x1) hz3,
    View.ld_unit_zero (S := S4x1x1) hz3, View.readCov_unit_zero (S := S4x8192x1) _ hz3, View.readCov_unit_zero (S := S4x1x1) _ hz3]

end Cert.KernelIdeal.Pieces

end
-- ==== Proof.LibRank3.lean ====
/-
  General lemmas: arrays of rank three read at their coordinates.

  A kernel that works on [a, b, c] blocks meets the same few steps again and again: a reduction along the last
  or the middle axis whose result is put back into rank three with a unit axis ("keepdims"), a broadcast of such
  a column or row back over the full block, and a closing sum over everything but the leading axis. Each lemma
  reads one such operation at an index given by its coordinates (`ix3 i j k`, `ix2 i j`, `ix1 i` of
  Lib/ValueIdx.lean), at any extents:

  * `shapeCast_ab_ab1_apply`, `shapeCast_ab_a1b_apply`: [a, b] viewed as [a, b, 1] or as [a, 1, b];
  * `broadcastTo_ab1_abc_apply`, `broadcastTo_a1c_abc_apply`: a column [a, b, 1] or a row [a, 1, c] broadcast
    over [a, b, c] reads the one entry it has on the unit axis;
  * at the ideal values, `sum_last_apply`: a `multi_reduction <add>` along the last axis is the sum over that
    coordinate; `min_last_apply`, `min_mid_apply`: a `multi_reduction <minimumf>` along the last or the middle
    axis is the fold of `min` from the accumulator's value over that coordinate; `sum_tail_apply`: a
    `multi_reduction <add>` of an [a, b, 1] array over its two trailing axes is the sum over the middle coordinate.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

namespace Cert.Lib.Rank3

open Idealize.ShloMosaic Idealize.ShloMosaic.ValueIdx
open scoped BigOperators

variable {α : Type}

/-! ## A unit axis added by a shape cast -/

/-- An `[a, b]` array viewed as `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array viewed as `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-! ## A column or a row broadcast over the block -/

/-- A column `[a, b, 1]` broadcast to `[a, b, c]` reads, at `(i, j, k)`, the column's entry at `(i, j)`. -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) := by
  refine broadcastTo_apply x h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show 0 = if (1 : ℕ) = 1 then 0 else k.val
    rw [if_pos rfl]

/-- A row `[a, 1, c]` broadcast to `[a, b, c]` reads, at `(i, j, k)`, the row's entry at `(i, k)`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ =>
    show 0 = if (1 : ℕ) = 1 then 0 else j.val
    rw [if_pos rfl]
  | ⟨2, _⟩ =>
    show k.val = if c = 1 then 0 else k.val
    split
    · have := k.isLt; omega
    · rfl

/-! ## Reductions at the ideal values -/

variable {φ : FTy}

/-- A `multi_reduction <add>` along the last axis: at `(i, j)`, the sum over the last coordinate. -/
theorem sum_last_apply {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (funext fun d => Fin.ext (by match d with | ⟨0, _⟩ => rfl | ⟨1, _⟩ => rfl | ⟨2, _⟩ => rfl)))

/-- A `multi_reduction <minimumf>` along the last axis: at `(i, j)`, the fold of `min` over the last coordinate. -/
theorem min_last_apply {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.minimumf.neutral φ hφ)
    (i : Fin a) (j : Fin b) :
    multiReduction .minimumf [2] ⟨2, ![a, b]⟩ src acc h hφ hacc (ix2 i j)
      = (Finset.univ : Finset (Fin c)).fold min (Ideal.ofBits φ acc) fun k => src (ix3 i j k) := by
  rw [multiReduction_minimumf_eq_fold]
  refine (h.fold_filter_drop_single _ _ src (ix2 i j)).trans ?_
  refine congrArg (fun f => (Finset.univ : Finset (Fin c)).fold min (Ideal.ofBits φ acc) f) (funext fun k => ?_)
  exact congrArg src (funext fun d => Fin.ext (by match d with | ⟨0, _⟩ => rfl | ⟨1, _⟩ => rfl | ⟨2, _⟩ => rfl))

/-- A `multi_reduction <minimumf>` along the middle axis: at `(i, k)`, the fold of `min` over the middle coordinate. -/
theorem min_mid_apply {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.minimumf.neutral φ hφ)
    (i : Fin a) (k : Fin c) :
    multiReduction .minimumf [1] ⟨2, ![a, c]⟩ src acc h hφ hacc (ix2 i k)
      = (Finset.univ : Finset (Fin b)).fold min (Ideal.ofBits φ acc) fun j => src (ix3 i j k) := by
  rw [multiReduction_minimumf_eq_fold]
  refine (h.fold_filter_drop_single _ _ src (ix2 i k)).trans ?_
  refine congrArg (fun f => (Finset.univ : Finset (Fin b)).fold min (Ideal.ofBits φ acc) f) (funext fun j => ?_)
  exact congrArg src (funext fun d => Fin.ext (by match d with | ⟨0, _⟩ => rfl | ⟨1, _⟩ => rfl | ⟨2, _⟩ => rfl))

/-- A `multi_reduction <add>` of an `[a, b, 1]` array over its two trailing axes: at `i`, the sum over the middle
    coordinate (the indices that drop to `i` are `(i, j, 0)`, one for each `j`). -/
theorem sum_tail_apply {a b : ℕ} (src : FVec Ideal ⟨3, ![a, b, 1]⟩ φ) (acc : BitVec φ.bits)
    (h : (⟨3, ![a, b, 1]⟩ : Shape).Reduces [1, 2] ⟨1, ![a]⟩) (hφ : FKind.Formats φ) (hacc : acc = FKind.add.neutral φ hφ)
    (i : Fin a) :
    multiReduction .add [1, 2] ⟨1, ![a]⟩ src acc h hφ hacc (ix1 i) = ∑ j : Fin b, src (ix3 i j (0 : Fin 1)) := by
  show ∑ idx ∈ Finset.univ.filter (fun idx => h.drop idx = ix1 i), src idx = _
  -- on the one kept axis a dropped index has the source's leading coordinate
  have hdrop : ∀ idx : (⟨3, ![a, b, 1]⟩ : Shape).Idx, (h.drop idx 0 : ℕ) = (idx 0 : ℕ) := fun _ => rfl
  -- so an index that drops to `i` is `(i, its middle coordinate, 0)`
  have key : ∀ idx : (⟨3, ![a, b, 1]⟩ : Shape).Idx, h.drop idx = ix1 i → ix3 i (idx 1 : Fin b) (0 : Fin 1) = idx := by
    intro idx hd
    have h0 : (idx 0 : ℕ) = i.val := by rw [← hdrop idx, hd]; rfl
    have h2 : (idx 2 : ℕ) = 0 := by have := (idx 2).isLt; simp at this; omega
    exact funext fun d => Fin.ext (by
      match d with
      | ⟨0, _⟩ => exact h0.symm
      | ⟨1, _⟩ => rfl
      | ⟨2, _⟩ => exact h2.symm)
  refine Finset.sum_nbij' (fun idx => (idx 1 : Fin b)) (fun j => ix3 i j (0 : Fin 1)) ?_ ?_ ?_ ?_ ?_
  · intro idx _; exact Finset.mem_univ _
  · intro j _
    refine Finset.mem_filter.2 ⟨Finset.mem_univ _, funext fun d => ?_⟩
    match d with
    | ⟨0, _⟩ => exact Fin.ext (hdrop (ix3 i j (0 : Fin 1)))
  · intro idx hidx; exact key idx (Finset.mem_filter.1 hidx).2
  · intro j _; rfl
  · intro idx hidx; exact congrArg src (key idx (Finset.mem_filter.1 hidx).2).symm

end Cert.Lib.Rank3

end
-- ==== Proof.Payload.lean ====
/-
  The body's arithmetic, read at an index at the ideal values.

  For the resident first cloud `x0` (all 8192 points) and one tile `x1` of 64 points of the second:

  * the tile of clipped squared distances at (b, r, j) is `sqDist` of point r of `x0` and point j of the tile: the two
    squared norms are lane sums over the three coordinates, kept as a column and, transposed, as a row, and
    broadcast over the tile; the inner products are the batched matrix product over the coordinate axis into a zero
    accumulator;
  * the row-minimum update at (b, r, ·) is the `min` of the accumulator's entry and the fold of `min` from +∞ over the
    tile's 64 distances of point r;
  * the tile's contribution to the column-minima sum at (b, ·) is the sum over the tile's 64 points of the fold of `min`
    from +∞ over all 8192 distances to that point;
  * the sum update adds that contribution to the accumulator's entry;
  * the closing arithmetic at b is the sum of the 8192 row minima over the word of 8192.0 plus the accumulated sum over
    the same word.
-/
import proofs.«142569_j11381663334570_1_alg».proof.Proof.Gen.KernelIdeal.Skeleton
import proofs.«142569_j11381663334570_1_alg».proof.Proof.Chamfer
import proofs.«142569_j11381663334570_1_alg».proof.Proof.LibRank3
import Idealize.ShloMosaic.Lib.ValueLayout
import Idealize.ShloMosaic.Lib.Pipeline.Value

noncomputable section

namespace Cert.KernelIdeal.Payload

open Cert.KernelIdeal Cert.KernelIdeal.Gen Cert.Chamfer Cert.Lib.Rank3
open Idealize.ShloMosaic Idealize.ShloMosaic.ValueIdx
open scoped BigOperators

/-! ## The batched matrix product at an index -/

theorem lhs_0 (i : S4x8192x64.Idx) (q : dot_S4x8192x3_S4x64x3_S4x8192x64_2_2_1_1_0_0.contr.Idx) :
    (dot_S4x8192x3_S4x64x3_S4x8192x64_2_2_1_1_0_0.lhsIdx i q 0).val = (i 0).val := by
  unfold DotDims.lhsIdx
  rw [dif_pos (show (0 : Fin S4x8192x3.rank) ∈ dot_S4x8192x3_S4x64x3_S4x8192x64_2_2_1_1_0_0.lhsBatch by decide)]
  rfl
theorem lhs_1 (i : S4x8192x64.Idx) (q : dot_S4x8192x3_S4x64x3_S4x8192x64_2_2_1_1_0_0.contr.Idx) :
    (dot_S4x8192x3_S4x64x3_S4x8192x64_2_2_1_1_0_0.lhsIdx i q 1).val = (i 1).val := by
  unfold DotDims.lhsIdx
  rw [dif_neg (show ¬(1 : Fin S4x8192x3.rank) ∈ dot_S4x8192x3_S4x64x3_S4x8192x64_2_2_1_1_0_0.lhsBatch by decide), dif_pos (show (1 : Fin S4x8192x3.rank) ∈ dot_S4x8192x3_S4x64x3_S4x8192x64_2_2_1_1_0_0.lhsNonContracting by decide)]
  rfl
theorem lhs_2 (i : S4x8192x64.Idx) (q : dot_S4x8192x3_S4x64x3_S4x8192x64_2_2_1_1_0_0.contr.Idx) :
    (dot_S4x8192x3_S4x64x3_S4x8192x64_2_2_1_1_0_0.lhsIdx i q 2).val = (q ⟨0, by decide⟩).val :=
  dot_S4x8192x3_S4x64x3_S4x8192x64_2_2_1_1_0_0.lhsIdx_val_of_single rfl i q
theorem rhs_0 (i : S4x8192x64.Idx) (q : dot_S4x8192x3_S4x64x3_S4x8192x64_2_2_1_1_0_0.contr.Idx) :
    (dot_S4x8192x3_S4x64x3_S4x8192x64_2_2_1_1_0_0.rhsIdx i q 0).val = (i 0).val := by
  unfold DotDims.rhsIdx
  rw [dif_pos (show (0 : Fin S4x64x3.rank) ∈ dot_S4x8192x3_S4x64x3_S4x8192x64_2_2_1_1_0_0.rhsBatch by decide)]
  rfl
theorem rhs_1 (i : S4x8192x64.Idx) (q : dot_S4x8192x3_S4x64x3_S4x8192x64_2_2_1_1_0_0.contr.Idx) :
    (dot_S4x8192x3_S4x64x3_S4x8192x64_2_2_1_1_0_0.rhsIdx i q 1).val = (i 2).val := by
  unfold DotDims.rhsIdx
  rw [dif_neg (show ¬(1 : Fin S4x64x3.rank) ∈ dot_S4x8192x3_S4x64x3_S4x8192x64_2_2_1_1_0_0.rhsBatch by decide), dif_pos (show (1 : Fin S4x64x3.rank) ∈ dot_S4x8192x3_S4x64x3_S4x8192x64_2_2_1_1_0_0.rhsNonContracting by decide)]
  rfl
theorem rhs_2 (i : S4x8192x64.Idx) (q : dot_S4x8192x3_S4x64x3_S4x8192x64_2_2_1_1_0_0.contr.Idx) :
    (dot_S4x8192x3_S4x64x3_S4x8192x64_2_2_1_1_0_0.rhsIdx i q 2).val = (q ⟨0, by decide⟩).val :=
  dot_S4x8192x3_S4x64x3_S4x8192x64_2_2_1_1_0_0.rhsIdx_val_of_single rfl i q

/-- The inner product of point r of the resident cloud and point j of the tile, batch member b. -/
theorem cross_apply (x0 : FVec Ideal S4x8192x3 .f32) (x1 : FVec Ideal S4x64x3 .f32) (b : Fin 4) (r : Fin 8192) (j : Fin 64) :
    matmul (F := Ideal) dot_S4x8192x3_S4x64x3_S4x8192x64_2_2_1_1_0_0 none x0 x1 (constant (F := Ideal) S4x8192x64 .f32 0x00000000#32) (ix3 b r j)
      = ∑ k : Fin 3, x0 (ix3 b r k) * x1 (ix3 b j k) := by
  simp only [matmul]
  rw [Ideal.matmul_constant_zero_apply, ← Equiv.sum_comp (ValueIdx.contrEquiv1 dot_S4x8192x3_S4x64x3_S4x8192x64_2_2_1_1_0_0 3 rfl rfl).symm]
  refine Finset.sum_congr rfl fun k _ => ?_
  have hk := ValueIdx.contrEquiv1_symm_val dot_S4x8192x3_S4x64x3_S4x8192x64_2_2_1_1_0_0 3 rfl rfl k
  have el : dot_S4x8192x3_S4x64x3_S4x8192x64_2_2_1_1_0_0.lhsIdx (ix3 b r j) ((ValueIdx.contrEquiv1 dot_S4x8192x3_S4x64x3_S4x8192x64_2_2_1_1_0_0 3 rfl rfl).symm k) = ix3 b r k := funext fun a => Fin.ext (by
    match a with
    | ⟨0, _⟩ => exact lhs_0 _ _
    | ⟨1, _⟩ => exact lhs_1 _ _
    | ⟨2, _⟩ => exact (lhs_2 _ _).trans hk)
  have er : dot_S4x8192x3_S4x64x3_S4x8192x64_2_2_1_1_0_0.rhsIdx (ix3 b r j) ((ValueIdx.contrEquiv1 dot_S4x8192x3_S4x64x3_S4x8192x64_2_2_1_1_0_0 3 rfl rfl).symm k) = ix3 b j k := funext fun a => Fin.ext (by
    match a with
    | ⟨0, _⟩ => exact rhs_0 _ _
    | ⟨1, _⟩ => exact rhs_1 _ _
    | ⟨2, _⟩ => exact (rhs_2 _ _).trans hk)
  rw [el, er]

/-! ## The payloads -/

variable (x0 : FVec Ideal S4x8192x3 .f32) (x1 : FVec Ideal S4x64x3 .f32)

/-- The tile of clipped squared distances. -/
theorem tileDist_apply (b : Fin 4) (r : Fin 8192) (j : Fin 64) :
    k0_pay5 (F := Ideal) x0 x1 (ix3 b r j) = sqDist (fun d => x0 (ix3 b r d)) (fun d => x1 (ix3 b j d)) := by
  unfold k0_pay5 sqDist
  show max ((broadcastTo S4x8192x64 _ broadcasts_S4x8192x1_S4x8192x64 (ix3 b r j)
        + broadcastTo S4x8192x64 _ broadcasts_S4x1x64_S4x8192x64 (ix3 b r j))
      - Ideal.ofBits .f32 0x40000000#32 * matmul (F := Ideal) dot_S4x8192x3_S4x64x3_S4x8192x64_2_2_1_1_0_0 none x0 x1 _ (ix3 b r j))
    (Ideal.ofBits .f32 0x00000000#32) = _
  refine congrArg₂ max (congrArg₂ (· - ·) (congrArg₂ (· + ·) ?_ ?_) (congrArg (Ideal.ofBits .f32 0x40000000#32 * ·) ?_)) rfl
  · exact (broadcastTo_ab1_abc_apply _ _ b r j).trans
      ((shapeCast_ab_ab1_apply _ _ b r 0).trans (sum_last_apply _ _ _ _ _ b r))
  · exact (broadcastTo_a1c_abc_apply _ _ b r j).trans ((transpose_ix3_021_apply _ _ b 0 j).trans
      ((shapeCast_ab_ab1_apply _ _ b j 0).trans (sum_last_apply _ _ _ _ _ b j)))
  · exact cross_apply x0 x1 b r j

/-- The row-minimum accumulator folded with the tile. -/
theorem rowUpdate_apply (acc : FVec Ideal S4x8192x1 .f32) (b : Fin 4) (r : Fin 8192) (u : Fin 1) :
    k0_pay6 (F := Ideal) x0 x1 acc (ix3 b r u)
      = min (acc (ix3 b r u)) ((Finset.univ : Finset (Fin 64)).fold min inf fun j => k0_pay5 (F := Ideal) x0 x1 (ix3 b r j)) := by
  unfold k0_pay6
  rw [shapeCast_self]
  show min (acc (ix3 b r u)) (shapeCast S4x8192x1 _ shapeCasts_S4x8192_S4x8192x1 (ix3 b r u)) = _
  rw [shapeCast_ab_ab1_apply _ _ b r u]
  exact congrArg (min (acc (ix3 b r u))) (min_last_apply _ _ _ _ _ b r)

/-- The tile's contribution to the column-minima sum. -/
theorem colSum_apply (b : Fin 4) (u : Fin 1) :
    k0_pay7 (F := Ideal) x0 x1 (ix2 b u)
      = ∑ j : Fin 64, (Finset.univ : Finset (Fin 8192)).fold min inf fun r => k0_pay5 (F := Ideal) x0 x1 (ix3 b r j) := by
  unfold k0_pay7
  refine (sum_last_apply _ _ _ _ _ b u).trans (Finset.sum_congr rfl fun j _ => ?_)
  exact (shapeCast_ab_a1b_apply _ _ b u j).trans (min_mid_apply _ _ _ _ _ b j)

/-- The sum accumulator with a tile's contribution added. -/
theorem sumUpdate_apply (acc : FVec Ideal S4x1x1 .f32) (s : FVec Ideal S4x1 .f32) (b : Fin 4) (u v : Fin 1) :
    k0_pay1 (F := Ideal) acc s (ix3 b u v) = acc (ix3 b u v) + s (ix2 b u) := by
  unfold k0_pay1
  rw [shapeCast_self]
  show acc (ix3 b u v) + shapeCast S4x1x1 s shapeCasts_S4x1_S4x1x1 (ix3 b u v) = _
  rw [shapeCast_ab_ab1_apply _ _ b u v]

/-- The closing arithmetic. -/
theorem closing_apply (rows : FVec Ideal S4x8192x1 .f32) (cols : FVec Ideal S4x1x1 .f32) (b : Fin 4) :
    k0_pay2 (F := Ideal) rows cols (ix1 b)
      = Ideal.div (∑ r : Fin 8192, rows (ix3 b r (0 : Fin 1))) count + Ideal.div (cols (ix3 b (0 : Fin 1) (0 : Fin 1))) count := by
  unfold k0_pay2
  show Ideal.div _ (Ideal.ofBits .f32 0x46000000#32) + Ideal.div _ (Ideal.ofBits .f32 0x46000000#32) = _
  refine congrArg₂ (· + ·) (congrArg (Ideal.div · count) ?_) (congrArg (Ideal.div · count) ?_)
  · exact sum_tail_apply rows _ _ _ _ b
  · exact (sum_tail_apply cols _ _ _ _ b).trans (Fin.sum_univ_one _)

end Cert.KernelIdeal.Payload

end
-- ==== Proof.Sweep.lean ====
/-
  The sweep over the 128 tiles of the second cloud, and the array it ends in.

  At every grid point the kernel sees the whole first cloud (its window never moves) and tile t of the second:
  point j of the tile is point 64·t + j of the cloud. So the tile's clipped squared distances are the cloud's at
  those columns, and after grid point t

    the row accumulator at (b, r) is the fold of `min` from +∞ over the columns below 64·(t+1) of row r,
    the sum accumulator at b is the sum over the columns below 64·(t+1) of the column minima:

  at the first point the reset values (+∞ everywhere; 0) are these folds over no column, and one step adds tile t
  by the two tiling laws. After the last point the columns below 64·128 are all of them; there the closing
  arithmetic of the two accumulators is the Chamfer distance, and that block, the only one written back, is the
  whole result array.
-/
import proofs.«142569_j11381663334570_1_alg».proof.Proof.Gen.KernelIdeal.Value
import proofs.«142569_j11381663334570_1_alg».proof.Proof.Chamfer
import proofs.«142569_j11381663334570_1_alg».proof.Proof.Pieces
import proofs.«142569_j11381663334570_1_alg».proof.Proof.Payload

set_option maxRecDepth 16384

noncomputable section

namespace Cert.KernelIdeal.Sweep

open Cert.KernelIdeal Cert.KernelIdeal.Gen Cert.KernelIdeal.Value Cert.Chamfer
open Cert.KernelIdeal.Pieces Cert.KernelIdeal.Payload
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ)

/-! ## The clouds and the blocks the body sees -/

/-- The two clouds as the region finds them. -/
abbrev first (c : Dev nD) : FVec Ideal S4x8192x3 .f32 := V m c main_arg0
abbrev second (c : Dev nD) : FVec Ideal S4x8192x3 .f32 := V m c main_arg1
/-- What the body loads at grid point `t`: the first window's block and the second's. -/
abbrev firstBlk (c : Dev nD) (t : Fin cfg0.N) : FVec Ideal S4x8192x3 .f32 := iblk m c 0 t
abbrev tileBlk (c : Dev nD) (t : Fin cfg0.N) : FVec Ideal S4x64x3 .f32 := iblk m c 1 t

theorem lt128 (t : Fin cfg0.N) : t.val < 128 := lt_of_lt_of_eq t.isLt (show cfg0.N = 128 from N_0)

/-- Grid point `t` as a tile number. -/
def tile (t : Fin cfg0.N) : Fin 128 := ⟨t.val, lt128 t⟩

/-- The printed index maps, decided over the grid: the first window stays at block 0, the second is at block
    `t` along the points' axis, the result's at block 0. -/
theorem idx_facts : ∀ t : Fin cfg0.N, win0_0.index t (0 : Fin 3) = 0 ∧ win0_0.index t (1 : Fin 3) = 0 ∧ win0_0.index t (2 : Fin 3) = 0
    ∧ win0_1.index t (0 : Fin 3) = 0 ∧ win0_1.index t (1 : Fin 3) = t.val ∧ win0_1.index t (2 : Fin 3) = 0
    ∧ win0_2.index t (0 : Fin 1) = 0 :=
  (by decide +kernel : ∀ t : Fin grid0.N, _)

/-- The first window's block is the whole first cloud, at every grid point. -/
theorem firstBlk_eq (c : Dev nD) (t : Fin cfg0.N) : firstBlk m c t = first m c := by
  funext y
  show V m c main_arg0 (((cfg0.win 0).blk t).view.emb y) = V m c main_arg0 y
  refine congrArg _ (funext fun a => Fin.ext ?_)
  obtain ⟨e0, e1, e2, -, -, -, -⟩ := idx_facts t
  match a with
  | ⟨0, _⟩ => show win0_0.index t (0 : Fin 3) * 4 + 1 * (y 0).val = (y 0).val; rw [e0]; omega
  | ⟨1, _⟩ => show win0_0.index t (1 : Fin 3) * 8192 + 1 * (y 1).val = (y 1).val; rw [e1]; omega
  | ⟨2, _⟩ => show win0_0.index t (2 : Fin 3) * 3 + 1 * (y 2).val = (y 2).val; rw [e2]; omega

/-- Point `j` of the second window's block at grid point `t` is point `64·t + j` of the second cloud. -/
theorem tileBlk_apply (c : Dev nD) (t : Fin cfg0.N) (b : Fin 4) (j : Fin 64) (d : Fin 3) :
    tileBlk m c t (ix3 b j d) = second m c (ix3 b (tileIdx (tile t) j) d) := by
  show V m c main_arg1 (((cfg0.win 1).blk t).view.emb (ix3 b j d)) = V m c main_arg1 (ix3 b (tileIdx (tile t) j) d)
  refine congrArg _ (funext fun a => Fin.ext ?_)
  obtain ⟨-, -, -, e0, e1, e2, -⟩ := idx_facts t
  match a with
  | ⟨0, _⟩ => show win0_1.index t (0 : Fin 3) * 4 + 1 * b.val = b.val; rw [e0]; omega
  | ⟨1, _⟩ => show win0_1.index t (1 : Fin 3) * 64 + 1 * j.val = 64 * t.val + j.val; rw [e1]; omega
  | ⟨2, _⟩ => show win0_1.index t (2 : Fin 3) * 3 + 1 * d.val = d.val; rw [e2]; omega

/-- So the tile's clipped squared distances are the clouds' at the tile's columns. -/
theorem tileDist_eq (c : Dev nD) (t : Fin cfg0.N) (b : Fin 4) (r : Fin 8192) (j : Fin 64) :
    k0_pay5 (F := Ideal) (firstBlk m c t) (tileBlk m c t) (ix3 b r j)
      = clipSq (first m c) (second m c) b r (tileIdx (tile t) j) := by
  rw [tileDist_apply, firstBlk_eq]
  unfold clipSq pt
  exact congrArg (sqDist _) (funext fun d => tileBlk_apply m c t b j d)

/-! ## The accumulators after the columns below `64·k` -/

/-- The row accumulator: for each point of the first cloud, the nearest of the second cloud's points below `64·k`. -/
def rowAcc (c : Dev nD) (k : ℕ) : FVec Ideal S4x8192x1 .f32 := fun i =>
  (below k).fold min inf fun mm => clipSq (first m c) (second m c) (i 0) (i 1) mm

/-- The sum accumulator: the column minima of the second cloud's points below `64·k`, added up. -/
def colAcc (c : Dev nD) (k : ℕ) : FVec Ideal S4x1x1 .f32 := fun i =>
  ∑ mm ∈ below k, toFirst (first m c) (second m c) (i 0) mm

/-- The reset value of the row accumulator is the fold over no column. -/
theorem rowReset (c : Dev nD) : k0_pay3 (F := Ideal) = rowAcc m c 0 := by
  funext i
  unfold k0_pay3
  rw [shapeCast_self]
  show inf = _
  unfold rowAcc
  rw [below_zero, Finset.fold_empty]

/-- The reset value of the sum accumulator is the sum over no column. -/
theorem colReset (c : Dev nD) : k0_pay4 (F := Ideal) = colAcc m c 0 := by
  funext i
  unfold k0_pay4
  rw [shapeCast_self]
  show Ideal.ofBits .f32 0x00000000#32 = _
  unfold colAcc
  rw [below_zero, Finset.sum_empty, Ideal.ofBits_zero_f32]

/-- One step of the row accumulator: the columns below `64·t`, then tile `t`. -/
theorem rowStep (c : Dev nD) (t : Fin cfg0.N) (acc : FVec Ideal S4x8192x1 .f32) (hacc : acc = rowAcc m c t.val) :
    k0_pay6 (F := Ideal) (firstBlk m c t) (tileBlk m c t) acc = rowAcc m c (t.val + 1) := by
  subst hacc
  funext i
  obtain ⟨b, r, u, rfl⟩ : ∃ (b : Fin 4) (r : Fin 8192) (u : Fin 1), i = ix3 b r u := ⟨i 0, i 1, i 2, eq_ix3 i⟩
  rw [rowUpdate_apply]
  simp only [tileDist_eq]
  exact fold_min_below_succ (fun mm => clipSq (first m c) (second m c) b r mm) inf (tile t)

/-- One step of the sum accumulator. -/
theorem colStep (c : Dev nD) (t : Fin cfg0.N) (acc : FVec Ideal S4x1x1 .f32) (hacc : acc = colAcc m c t.val) :
    k0_pay1 (F := Ideal) acc (k0_pay7 (F := Ideal) (firstBlk m c t) (tileBlk m c t)) = colAcc m c (t.val + 1) := by
  subst hacc
  funext i
  obtain ⟨b, u, v, rfl⟩ : ∃ (b : Fin 4) (u v : Fin 1), i = ix3 b u v := ⟨i 0, i 1, i 2, eq_ix3 i⟩
  rw [sumUpdate_apply, colSum_apply]
  simp only [tileDist_eq]
  exact (sum_below_succ (fun mm => toFirst (first m c) (second m c) b mm) (tile t)).symm

/-! ## What the run's contents are, case by case, as the body's arithmetic -/

/-- After the first grid point. -/
theorem after_first (c : Dev nD) (t : Fin cfg0.N) (h0 : t.val % 128 = 0) (h1 : ¬t.val % 128 = 127) :
    (outsAt0 m c t.val t.isLt).2.1 = k0_pay6 (F := Ideal) (firstBlk m c t) (tileBlk m c t) (k0_pay3 (F := Ideal))
    ∧ (outsAt0 m c t.val t.isLt).2.2 = k0_pay1 (F := Ideal) (k0_pay4 (F := Ideal)) (k0_pay7 (F := Ideal) (firstBlk m c t) (tileBlk m c t)) := by
  rw [outsAt0_A m c t h0 h1]
  dsimp only
  exact ⟨rowAcc_first (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (firstBlk m c t) (tileBlk m c t),
    colAcc_first (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (firstBlk m c t) (tileBlk m c t)⟩

/-- After a middle grid point, over what the point before left. -/
theorem after_mid (c : Dev nD) (t : Fin cfg0.N) (h0 : ¬t.val % 128 = 0) (h1 : ¬t.val % 128 = 127) :
    (outsAt0 m c t.val t.isLt).2.1 = k0_pay6 (F := Ideal) (firstBlk m c t) (tileBlk m c t) (outsAt0 m c (t.val - 1) (Nat.lt_of_le_of_lt (Nat.sub_le _ _) t.isLt)).2.1
    ∧ (outsAt0 m c t.val t.isLt).2.2 = k0_pay1 (F := Ideal) (outsAt0 m c (t.val - 1) (Nat.lt_of_le_of_lt (Nat.sub_le _ _) t.isLt)).2.2 (k0_pay7 (F := Ideal) (firstBlk m c t) (tileBlk m c t)) := by
  rw [outsAt0_B m c t h0 h1]
  dsimp only
  exact ⟨rowAcc_mid (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (firstBlk m c t) (tileBlk m c t) (outsAt0 m c (t.val - 1) (Nat.lt_of_le_of_lt (Nat.sub_le _ _) t.isLt)).2.1 (outsAt0 m c (t.val - 1) (Nat.lt_of_le_of_lt (Nat.sub_le _ _) t.isLt)).2.2,
    colAcc_mid (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (firstBlk m c t) (tileBlk m c t) (outsAt0 m c (t.val - 1) (Nat.lt_of_le_of_lt (Nat.sub_le _ _) t.isLt)).2.1 (outsAt0 m c (t.val - 1) (Nat.lt_of_le_of_lt (Nat.sub_le _ _) t.isLt)).2.2⟩

/-- After the last grid point, over what the point before left: the two accumulators, and the result block as the
    closing arithmetic of the two. -/
theorem after_last (c : Dev nD) (t : Fin cfg0.N) (h0 : ¬t.val % 128 = 0) (h1 : t.val % 128 = 127) :
    (outsAt0 m c t.val t.isLt).2.1 = k0_pay6 (F := Ideal) (firstBlk m c t) (tileBlk m c t) (outsAt0 m c (t.val - 1) (Nat.lt_of_le_of_lt (Nat.sub_le _ _) t.isLt)).2.1
    ∧ (outsAt0 m c t.val t.isLt).2.2 = k0_pay1 (F := Ideal) (outsAt0 m c (t.val - 1) (Nat.lt_of_le_of_lt (Nat.sub_le _ _) t.isLt)).2.2 (k0_pay7 (F := Ideal) (firstBlk m c t) (tileBlk m c t))
    ∧ (outsAt0 m c t.val t.isLt).1 = k0_pay2 (F := Ideal) (k0_pay6 (F := Ideal) (firstBlk m c t) (tileBlk m c t) (outsAt0 m c (t.val - 1) (Nat.lt_of_le_of_lt (Nat.sub_le _ _) t.isLt)).2.1)
        (k0_pay1 (F := Ideal) (outsAt0 m c (t.val - 1) (Nat.lt_of_le_of_lt (Nat.sub_le _ _) t.isLt)).2.2 (k0_pay7 (F := Ideal) (firstBlk m c t) (tileBlk m c t))) := by
  rw [outsAt0_C m c t h0 h1]
  dsimp only
  exact ⟨rowAcc_last (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (firstBlk m c t) (tileBlk m c t) (outsAt0 m c (t.val - 1) (Nat.lt_of_le_of_lt (Nat.sub_le _ _) t.isLt)).2.1 (outsAt0 m c (t.val - 1) (Nat.lt_of_le_of_lt (Nat.sub_le _ _) t.isLt)).2.2,
    colAcc_last (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (firstBlk m c t) (tileBlk m c t) (outsAt0 m c (t.val - 1) (Nat.lt_of_le_of_lt (Nat.sub_le _ _) t.isLt)).2.1 (outsAt0 m c (t.val - 1) (Nat.lt_of_le_of_lt (Nat.sub_le _ _) t.isLt)).2.2,
    result_last (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (firstBlk m c t) (tileBlk m c t) (outsAt0 m c (t.val - 1) (Nat.lt_of_le_of_lt (Nat.sub_le _ _) t.isLt)).2.1 (outsAt0 m c (t.val - 1) (Nat.lt_of_le_of_lt (Nat.sub_le _ _) t.isLt)).2.2⟩

/-! ## The sweep -/

/-- After grid point `n` the two accumulators hold the folds over the columns below `64·(n+1)`. -/
theorem sweep (c : Dev nD) : ∀ (n : ℕ) (hn : n < cfg0.N),
    (outsAt0 m c n hn).2.1 = rowAcc m c (n + 1) ∧ (outsAt0 m c n hn).2.2 = colAcc m c (n + 1)
  | 0, hn => by
    obtain ⟨hr, hc⟩ := after_first m c ⟨0, hn⟩ (Nat.zero_mod _) (by show ¬(0 % 128 = 127); decide)
    exact ⟨hr.trans (rowStep m c ⟨0, hn⟩ _ (rowReset m c)), hc.trans (colStep m c ⟨0, hn⟩ _ (colReset m c))⟩
  | n + 1, hn => by
    obtain ⟨ihr, ihc⟩ := sweep c n (Nat.lt_of_succ_lt hn)
    have hN : n + 1 < 128 := lt128 ⟨n + 1, hn⟩
    have h0 : ¬(n + 1) % 128 = 0 := by omega
    by_cases h1 : (n + 1) % 128 = 127
    · obtain ⟨hr, hc, -⟩ := after_last m c ⟨n + 1, hn⟩ h0 h1
      exact ⟨hr.trans (rowStep m c ⟨n + 1, hn⟩ _ ihr), hc.trans (colStep m c ⟨n + 1, hn⟩ _ ihc)⟩
    · obtain ⟨hr, hc⟩ := after_mid m c ⟨n + 1, hn⟩ h0 h1
      exact ⟨hr.trans (rowStep m c ⟨n + 1, hn⟩ _ ihr), hc.trans (colStep m c ⟨n + 1, hn⟩ _ ihc)⟩

/-! ## The result -/

/-- The closing arithmetic of the full accumulators is the Chamfer distance. -/
theorem closing_full (c : Dev nD) :
    k0_pay2 (F := Ideal) (rowAcc m c 128) (colAcc m c 128) = chamfer (first m c) (second m c) := by
  funext i
  obtain ⟨b, rfl⟩ : ∃ b : Fin 4, i = ix1 b := ⟨i 0, eq_ix1 i⟩
  rw [closing_apply]
  unfold rowAcc colAcc chamfer toSecond
  simp only [below_full]

/-- What the last grid point leaves in the result block. -/
theorem result_at_last (c : Dev nD) (t : Fin cfg0.N) (h1 : t.val % 128 = 127) :
    (outsAt0 m c t.val t.isLt).1 = chamfer (first m c) (second m c) := by
  have hN := lt128 t
  have h0 : ¬t.val % 128 = 0 := by omega
  have ht : t.val + 1 = 128 := by omega
  obtain ⟨hr, hc, ho⟩ := after_last m c t h0 h1
  obtain ⟨sr, sc⟩ := sweep m c t.val t.isLt
  rw [ho, ← hr, ← hc, sr, sc, ht]
  exact closing_full m c

/-- What a grid point that writes the result back writes: the Chamfer distance's block there. -/
theorem flushed_eq (c : Dev nD) (t : Fin cfg0.N) (hf : (cfg0.win 2).flush t = true) :
    (dats m 0 c).flushed 2 t = ((cfg0.win 2).blk t).view.read (Elt Ideal) (chamfer (first m c) (second m c)) := by
  have h1 : t.val % 128 = 127 := (flush0_2 t).mp hf
  rw [flushed2]
  funext y
  show (outsAt0 m c t.val t.isLt).1 y = chamfer (first m c) (second m c) (((cfg0.win 2).blk t).view.emb y)
  have hemb : ((cfg0.win 2).blk t).view.emb y = y := funext fun a => Fin.ext (by
    obtain ⟨-, -, -, -, -, -, e⟩ := idx_facts t
    match a with
    | ⟨0, _⟩ => show win0_2.index t (0 : Fin 1) * 4 + 1 * (y 0).val = (y 0).val; rw [e]; omega)
  rw [hemb, result_at_last m c t h1]

/-- An index of the result array is in the block a grid point writes back. -/
theorem mem_blk (t : Fin cfg0.N) (i : S4.Idx) :
    i ∈ ((cfg0.win 2).blk t).view.set ↔ ∀ a : Fin 1, win0_2.index t a * S4.size a ≤ (i a).val ∧ (i a).val < win0_2.index t a * S4.size a + S4.size a := by
  show i ∈ ((View.whole main_v0).slice (win0_2.rect t)).set ↔ _
  rw [View.set_slice_whole, Rect.mem_set_unit]
  exact Iff.rfl

/-- THE ARRAY after the run: the Chamfer distance of the two clouds. -/
theorem final (c : Dev nD) :
    (dats m 0 c).arrAt 2 cfg0.N = chamfer (m ((c : Thread nD τ).loc main_arg0)) (m ((c : Thread nD τ).loc main_arg1)) := by
  refine (dats m 0 c).arrAt_eq_of_cover 2 (chamfer (first m c) (second m c)) (fun t hf => flushed_eq m c t hf) fun i => ?_
  have hN : (127 : ℕ) < cfg0.N := by rw [show cfg0.N = 128 from N_0]; decide
  refine ⟨⟨127, hN⟩, (flush0_2 ⟨127, hN⟩).mpr (by show 127 % 128 = 127; decide), ?_⟩
  rw [mem_blk]
  obtain ⟨-, -, -, -, -, -, e⟩ := idx_facts ⟨127, hN⟩
  intro a
  match a with
  | ⟨0, _⟩ =>
    show win0_2.index ⟨127, hN⟩ (0 : Fin 1) * 4 ≤ (i 0).val ∧ (i 0).val < win0_2.index ⟨127, hN⟩ (0 : Fin 1) * 4 + 4
    have hi : (i 0).val < 4 := (i 0).isLt
    rw [e]; omega

/-- The kernel's run: every weakly fair execution terminates with the result array at the Chamfer distance of the two
    argument arrays, which end unchanged. -/
theorem run (ρ : Dev nD → PrngReg) : θ_run defs (onTc (τ := τ) (main (F := Ideal))) ⟨m, fun _ => 0, ρ⟩ fun r => ∀ c : Dev nD,
      r.2.mem ((c : Thread nD τ).loc main_v0) = chamfer (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Sweep

end
-- ==== Proof.lean ====
/-
  The kernel computes the Chamfer distance of two clouds of 8192 points in three coordinates, for each of four batch
  members, and so does the reference: at the ideal values both results are, index by index,

    (∑ over the first cloud's points of the clipped squared distance to the nearest point of the second) / 8192
      + (∑ over the second cloud's points of the clipped squared distance to the nearest point of the first) / 8192,

  the squared distance formed as ‖p‖² + ‖g‖² − 2⟨p, g⟩ and clipped at zero (Proof/Chamfer.lean, `chamfer`).

  The reference forms the whole 8192 × 8192 matrix of distances and reduces it along each axis (Proof/RefValue.lean).
  The kernel never forms it: it keeps the first cloud resident and sweeps the second in 128 tiles of 64 points, holding
  a running row minimum per point of the first cloud and a running sum of the column minima, which are exact per tile
  because every row is present; the last tile's grid point divides the two sums by 8192 and adds them
  (Proof/Pieces.lean: what a grid point leaves, as the body's arithmetic; Proof/Payload.lean: that arithmetic at an
  index; Proof/Sweep.lean: the two accumulators after every tile, by induction over the tiles, and the final array).
  The two programs differ only in how a minimum and a sum are bracketed; `min` and `+` on the extended reals are
  commutative and associative and `min` is idempotent, so the equality holds at every input and the precondition is
  not used. The idealization rewrote nothing, so there is nothing to preserve.
-/
import proofs.«142569_j11381663334570_1_alg».proof.Defs
import proofs.«142569_j11381663334570_1_alg».proof.Proof.Gen.Kernel
import proofs.«142569_j11381663334570_1_alg».proof.Proof.Gen.Kernel.Skeleton
import proofs.«142569_j11381663334570_1_alg».proof.Proof.Gen.Kernel.Launch
import proofs.«142569_j11381663334570_1_alg».proof.Proof.Gen.Kernel.Points
import proofs.«142569_j11381663334570_1_alg».proof.Proof.Gen.Kernel.Frame
import proofs.«142569_j11381663334570_1_alg».proof.Proof.Gen.KernelIdeal
import proofs.«142569_j11381663334570_1_alg».proof.Proof.Gen.KernelIdeal.Skeleton
import proofs.«142569_j11381663334570_1_alg».proof.Proof.Gen.KernelIdeal.Launch
import proofs.«142569_j11381663334570_1_alg».proof.Proof.Gen.KernelIdeal.Points
import proofs.«142569_j11381663334570_1_alg».proof.Proof.Gen.KernelIdeal.Frame
import proofs.«142569_j11381663334570_1_alg».proof.Proof.Gen.ReferenceIdeal
import proofs.«142569_j11381663334570_1_alg».proof.Proof.Gen.Pre_finite_inputs
import proofs.«142569_j11381663334570_1_alg».proof.Proof.Gen.KernelIdeal.Value
import proofs.«142569_j11381663334570_1_alg».proof.Proof.Gen.ReferenceIdeal.Run
import proofs.«142569_j11381663334570_1_alg».proof.Proof.Gen.ReferenceIdeal.Read
import proofs.«142569_j11381663334570_1_alg».proof.Proof.RefValue
import proofs.«142569_j11381663334570_1_alg».proof.Proof.Sweep
import Idealize.ShloMosaic.Adequacy
import Idealize.ShloMosaic.Init

noncomputable section

namespace Cert.Proof

open Idealize.ShloMosaic Idealize.SL.Sem

/-- The kernel as printed runs, and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference runs and leaves its arguments as they were: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the two clouds, both programs end with the Chamfer distance of the clouds. -/
theorem algebraic : Cert.algebraic_KernelIdeal_ReferenceIdeal := by
  intro m ρ m' ρ' _ hagree
  refine ⟨_, Cert.KernelIdeal.Sweep.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
